-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x16x256 : S_.BroadcastsInDim S50000x16x256 (![] : Fin 0 → Fin S50000x16x256.rank)
  reducesTo_S50000x16x256_S_d0_1_2 : S50000x16x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S50000x16x256 .f32) (main_arg2 : FVec F S256x512 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x16x256 .f32 := Host.absf main_arg1
  let main_cst_0 : FVec F S_ .f32 := constant S_ .f32 0x7F800000#32
  let main_v5 : FVec F S50000x16x256 .f32 := broadcastInDim S50000x16x256 ![] bcast_S_S50000x16x256 main_cst_0
  let main_v6 : IVec S50000x16x256 1 := cmpf .olt main_v4 main_v5
  let main_c_1 : IVec S_ 1 := constantI S_ 1 1#1
  let main_v7 : IVec S_ 1 := (fun x v => Host.reduce IntOp.andi x v reducesTo_S50000x16x256_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S400x256 : Shape := ⟨2, ![400, 256]⟩
abbrev S400x16x256 : Shape := ⟨3, ![400, 16, 256]⟩
abbrev S256x256 : Shape := ⟨2, ![256, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x512, .f32⟩
  | .hbm, ⟨3, _⟩ => ⟨S256, .f32⟩
  | .hbm, ⟨4, _⟩ => ⟨S50000x256, .f32⟩
  | .local _ .vmem, ⟨0, _⟩ => ⟨S400x256, .f32⟩
  | .local _ .vmem, ⟨1, _⟩ => ⟨S400x256, .f32⟩
  | .local _ .vmem, ⟨2, _⟩ => ⟨S400x16x256, .f32⟩
  | .local _ .vmem, ⟨3, _⟩ => ⟨S400x16x256, .f32⟩
  | .local _ .vmem, ⟨4, _⟩ => ⟨S256x512, .f32⟩
  | .local _ .vmem, ⟨5, _⟩ => ⟨S256, .f32⟩
  | .local _ .vmem, ⟨6, _⟩ => ⟨S400x256, .f32⟩
  | .local _ .vmem, ⟨7, _⟩ => ⟨S400x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S400x256_S400x256_0_0 : ∀ a, (![0, 0] : Fin 2 → Nat) a + S400x256.size a ≤ S400x256.size a
  h_S400x256 : 0 < S400x256.numel
  inb_S400x16x256_S400x16x256_0_0_0 : ∀ a, (![0, 0, 0] : Fin 3 → Nat) a + S400x16x256.size a ≤ S400x16x256.size a
  h_S400x16x256 : 0 < S400x16x256.numel
  reduces_S400x16x256_S400x256 : S400x16x256.Reduces [1] S400x256
  inb_S256x512_S256x256_0_0 : ∀ a, (![0, 0] : Fin 2 → Nat) a + S256x256.size a ≤ S256x512.size a
  h_S256x256 : 0 < S256x256.numel
  inb_S256x512_S256x256_0_256 : ∀ a, (![0, 256] : Fin 2 → Nat) a + S256x256.size a ≤ S256x512.size a
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  dot_S400x256_S256x256_S400x256_1_1_0_0_n_n_wf : DotDims.WF S400x256 S256x256 S400x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S50000x256.size a
  hwx0_0 : ∀ i : grid0.Coords, EltTy.bits .f32 = 32 ∨ (Rect.block (s := S50000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x256.size a ≤ S50000x16x256.size a
  hwx0_1 : ∀ i : grid0.Coords, EltTy.bits .f32 = 32 ∨ (Rect.block (s := S50000x16x256) S400x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S50000x256.size a
  hwx0_4 : ∀ i : grid0.Coords, EltTy.bits .f32 = 32 ∨ (Rect.block (s := S50000x256) S400x256.size (cc0_transform_4 i) (hinb0_4 i)).WholeWords (EltTy.packing .f32)

variable [Facts₀]

def dot_S400x256_S256x256_S400x256_1_1_0_0_n_n : DotDims S400x256 S256x256 S400x256 where
  lhsContracting := [1]
  rhsContracting := [1]
  lhsNonContracting := [0]
  rhsNonContracting := [0]
  lhsBatch := []
  rhsBatch := []
  wf := dot_S400x256_S256x256_S400x256_1_1_0_0_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x16x256 : Shape := ⟨3, ![50000, 16, 256]⟩
abbrev S256x512 : Shape := ⟨2, ![256, 512]⟩
abbrev S256 : Shape := ⟨1, ![256]⟩
abbrev S_ : Shape := ⟨0, ![]⟩
abbrev S50000x512 : Shape := ⟨2, ![50000, 512]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x512, .f32⟩
  | .hbm, ⟨3, _⟩ => ⟨S256, .f32⟩
  | .hbm, ⟨4, _⟩ => ⟨S_, .f32⟩
  | .hbm, ⟨5, _⟩ => ⟨S50000x256, .f32⟩
  | .hbm, ⟨6, _⟩ => ⟨S_, .f32⟩
  | .hbm, ⟨7, _⟩ => ⟨S50000x256, .f32⟩
  | .hbm, ⟨8, _⟩ => ⟨S50000x256, .f32⟩
  | .hbm, ⟨9, _⟩ => ⟨S50000x512, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S_S50000x256 : S_.BroadcastsInDim S50000x256 (![] : Fin 0 → Fin S50000x256.rank)
  concatenates_S50000x256_S50000x256_S50000x512_d1 : Shape.Concatenates [S50000x256, S50000x256] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S256x512_S50000x256_1_1_0_0_n_n_wf : DotDims.WF S50000x512 S256x512 S50000x256 [1] [1] [0] [0] [] []

variable [Facts₀]

def dot_S50000x512_S256x512_S50000x256_1_1_0_0_n_n : DotDims S50000x512 S256x512 S50000x256 where
  lhsContracting := [1]
  rhsContracting := [1]
  lhsNonContracting := [0]
  rhsNonContracting := [0]
  lhsBatch := []
  rhsBatch := []
  wf := dot_S50000x512_S256x512_S50000x256_1_1_0_0_n_n_wf

class Facts : Prop extends Facts₀ where

variable [Facts]
-- ==== Proof.Spec.lean ====
/-
  The function both programs compute, index by index, on the extended reals.

  A node n has its own feature row h(n, ·) of 256 entries and 16 neighbour rows nei(n, k, ·). The aggregate is
  the mean over the neighbours, agg(n, d) = (Σ_k nei(n, k, d)) / 16. The layer's weight W is [256, 512]: output
  unit o pairs its first 256 weights with the node's own row and its last 256 with the aggregate, so

    out(n, o) = max( Σ_d h(n, d) · W(o, d)  +  Σ_d agg(n, d) · W(o, 256 + d)  +  b(o),  0 ).

  One side forms the two half sums separately; the other lays the own row and the aggregate side by side as one
  row of 512 entries and takes a single sum over it. The law that joins them (`sum_halves`) is that a sum over
  512 consecutive coordinates is the sum over the first 256 plus the sum over the last 256: addition on the
  extended reals is commutative and associative, which is all a finite sum's regrouping needs, so no finiteness
  of the inputs is used anywhere.
-/
import Idealize.ShloMosaic.PureOps.Ideal
import Idealize.ShloMosaic.Lib.ValueIdx

noncomputable section

open scoped BigOperators

namespace Cert.Sage

open Idealize.ShloMosaic Idealize.ShloMosaic.ValueIdx

/-- Coordinate d of the first half of a 512-entry row. -/
abbrev lo (d : Fin 256) : Fin 512 := ⟨d.val, by have := d.isLt; omega⟩
/-- Coordinate d of the second half of a 512-entry row. -/
abbrev hi (d : Fin 256) : Fin 512 := ⟨256 + d.val, by have := d.isLt; omega⟩

/-- A sum over a 512-entry row is the sum over its first half plus the sum over its second half. -/
theorem sum_halves {M : Type*} [AddCommMonoid M] (f : Fin 512 → M) :
    ∑ k : Fin 512, f k = ∑ d : Fin 256, f (lo d) + ∑ d : Fin 256, f (hi d) :=
  Fin.sum_univ_add (a := 256) (b := 256) f

/-- The mean of node n's 16 neighbour rows at feature d: their sum divided by the float 16. -/
def agg (nei : (⟨3, ![50000, 16, 256]⟩ : Shape).Idx → EReal) (n : Fin 50000) (d : Fin 256) : EReal :=
  Ideal.div (∑ k : Fin 16, nei (ix3 n k d)) (Ideal.ofBits .f32 0x41800000#32)

/-- The layer's output: own row against the first half of the weights, the neighbours' mean against the second
    half, plus the bias, clipped below at the float zero. -/
def out (h : (⟨2, ![50000, 256]⟩ : Shape).Idx → EReal) (nei : (⟨3, ![50000, 16, 256]⟩ : Shape).Idx → EReal)
    (W : (⟨2, ![256, 512]⟩ : Shape).Idx → EReal) (b : (⟨1, ![256]⟩ : Shape).Idx → EReal) :
    (⟨2, ![50000, 256]⟩ : Shape).Idx → EReal := fun i =>
  max ((∑ d : Fin 256, h (ix2 (i 0) d) * W (ix2 (i 1) (lo d))
        + ∑ d : Fin 256, agg nei (i 0) d * W (ix2 (i 1) (hi d)))
        + b (ix1 (i 1)))
      (Ideal.ofBits .f32 0x00000000#32)

end Cert.Sage

end
-- ==== Proof.LibMatmulNT.lean ====
/-
  A rank-2 block times the TRANSPOSE of a rank-2 block, at the ideal values, for any extents.

  The dimension numbers contract axis 1 of the left operand [m, k] against axis 1 of the right operand [n, k]
  (a product with the transposed right matrix, `A · Bᵀ`): result entry (a, b) pairs row a of the left operand
  with row b of the right one. Read at the ideal values, where a product is exact and no accumulation order is
  left, the kernel's product into the zero accumulator and the host's `dot_general` are both the plain sum
  Σ_c A(a, c) · B(b, c) over the contracted coordinate, whatever precision the operation carries.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {m k n : Nat}

/-- The dimension numbers of `A · Bᵀ` over [m, k] and [n, k]: both operands contract their axis 1, axis 0 of each
    is kept, no batch axes. `w` is their well-formedness, which a program states. -/
abbrev nt (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ :=
  ⟨[1], [1], [0], [0], [], [], w⟩

/-- The left operand's index for result entry (a, b) and contracted coordinate c is (a, c). -/
theorem nt_lhsIdx (w : DotDims.WF ⟨2, ![m, k]⟩ ⟨2, ![n, k]⟩ ⟨2, ![m, n]⟩ [1] [1] [0] [0] [] [])
    (a : Fin m) (b : Fin n) (c : Fin k) :
    (nt w).lhsIdx (ix2 a b) ((contrEquiv1 (nt w) k rfl rfl).symm c) = ix2 a c := by
  have hc := contrEquiv1_symm_val (nt w) k rfl rfl c
  funext ax; apply Fin.ext
  match ax with
  | ⟨0, _⟩ => simp [DotDims.lhsIdx]; rfl
  | ⟨1, _⟩ => simp [DotDims.lhsIdx]; exact hc

/-- The right operand's index for result entry (a, b) and contracted coordinate c is (b, c). -/
theorem nt_rhsIdx (w : DotDims.WF ⟨2, ![m, k]⟩ ⟨2, ![n, k]⟩ ⟨2, ![m, n]⟩ [1] [1] [0] [0] [] [])
    (a : Fin m) (b : Fin n) (c : Fin k) :
    (nt w).rhsIdx (ix2 a b) ((contrEquiv1 (nt w) k rfl rfl).symm c) = ix2 b c := by
  have hc := contrEquiv1_symm_val (nt w) k rfl rfl c
  funext ax; apply Fin.ext
  match ax with
  | ⟨0, _⟩ => simp [DotDims.rhsIdx]; rfl
  | ⟨1, _⟩ => simp [DotDims.rhsIdx]; exact hc

/-- The kernel's product `A · Bᵀ` into the zero accumulator, read at (a, b): Σ_c A(a, c) · B(b, c). -/
theorem matmul_nt_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (nt w) prec A B (constant ⟨2, ![m, n]⟩ .f32 0x00000000#32) (ix2 a b)
      = ∑ c : Fin k, A (ix2 a c) * B (ix2 b c) := by
  rw [Ideal.matmul_constant_zero_apply, ← Equiv.sum_comp (contrEquiv1 (nt w) k rfl rfl).symm]
  refine Finset.sum_congr rfl fun c _ => ?_
  rw [nt_lhsIdx w a b c, nt_rhsIdx w a b c]

/-- The host's `dot_general` with the same dimension numbers, read at (a, b): the same sum. -/
theorem dotGeneral_nt_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (nt w) prec A B (ix2 a b) = ∑ c : Fin k, A (ix2 a c) * B (ix2 b c) := by
  show FloatOps.dotGeneral _ prec _ A B (ix2 a b) = _
  rw [Ideal.dotGeneral_apply, ← Equiv.sum_comp (contrEquiv1 (nt w) k rfl rfl).symm]
  refine Finset.sum_congr rfl fun c _ => ?_
  rw [nt_lhsIdx w a b c, nt_rhsIdx w a b c]

end Cert.LibMatmulNT

end
-- ==== Proof.KernelBody.lean ====
/-
  What the kernel's body writes at one grid point, read at an entry, and the block it writes as a block of the
  specification.

  The grid has 125 points; point t handles the 400 nodes 400·t … 400·t + 399. Its body loads the nodes' own rows
  (a [400, 256] block), their neighbour rows ([400, 16, 256]), the whole weight matrix as two [256, 256] halves
  (columns 0 … 255 and 256 … 511) and the bias row, and stores one [400, 256] block: entry (p, q) is

    max( Σ_d own(p, d) · W₁(q, d)  +  Σ_d (Σ_k nb(p, k, d) / 16) · W₂(q, d)  +  bias(q),  0 ),

  the two products taken against the TRANSPOSED halves (both operands contract their second axis), a change of
  float format being the identity on the extended reals. Since block row p of point t is array row 400·t + p, and
  the halves are columns d and 256 + d of the weights, this is the specification's entry (400·t + p, q).
-/
import proofs.«167326_j22548578304241_1_alg».proof.Proof.Gen.KernelIdeal.Value
import proofs.«167326_j22548578304241_1_alg».proof.Proof.Spec
import proofs.«167326_j22548578304241_1_alg».proof.Proof.LibMatmulNT
import Idealize.ShloMosaic.Lib.Pipeline.Value
import Idealize.ShloMosaic.Lib.ValueIdx
import Idealize.ShloMosaic.PureOps.Ideal.Laws

noncomputable section

open scoped BigOperators

namespace Cert.Sage.Kern

open Cert.KernelIdeal Cert.KernelIdeal.Gen Idealize.ShloMosaic Idealize.ShloMosaic.TcCoe Idealize.SL.Sem
open Idealize.ShloMosaic.ValueIdx Cert.Sage
open Idealize.ShloMosaic.Pipeline (Dat)

/-! ## The body's arithmetic at an entry -/

/-- A block times the transposed [256, 256] half of the weights into the zero accumulator, at (p, q). -/
theorem product_apply (A : FVec Ideal S400x256 .bf16) (B : FVec Ideal S256x256 .bf16) (p : Fin 400) (q : Fin 256) :
    matmul dot_S400x256_S256x256_S400x256_1_1_0_0_n_n none A B (constant S400x256 .f32 0x00000000#32) (ix2 p q)
      = ∑ d : Fin 256, A (ix2 p d) * B (ix2 q d) :=
  LibMatmulNT.matmul_nt_zero_apply dot_S400x256_S256x256_S400x256_1_1_0_0_n_n_wf none A B p q

/-- The lane sum over the 16 neighbours divided by the float 16, at (p, d). -/
theorem mean_apply (x1 : Vec Ideal S400x16x256 .f32) (p : Fin 400) (d : Fin 256) :
    divf (multiReduction (F := Ideal) .add [1] S400x256 x1 0x00000000#32 reduces_S400x16x256_S400x256 (.inl rfl) rfl)
        (broadcast S400x256 (Scalar.ofBits (F := Ideal) .f32 0x41800000#32)) (ix2 p d)
      = Ideal.div (∑ k : Fin 16, x1 (ix3 p k d)) (Ideal.ofBits .f32 0x41800000#32) := by
  rw [divf_apply, broadcast_apply]
  refine congrArg (Ideal.div · _) ?_
  refine (Ideal.multiReduction_add_single x1 _ reduces_S400x16x256_S400x256 (.inl rfl) rfl (ix2 p d)).trans ?_
  refine Finset.sum_congr rfl fun k _ => congrArg x1 (funext fun a => Fin.ext ?_)
  match a with
  | ⟨0, _⟩ => rfl
  | ⟨1, _⟩ => rfl
  | ⟨2, _⟩ => rfl

/-- The bias row, cast to [1, 256] and broadcast down the 400 rows, at (p, q) is the bias at q. -/
theorem bias_apply (bb : Vec Ideal S256 .f32) (p : Fin 400) (q : Fin 256) :
    broadcastTo S400x256 (shapeCast S1x256 bb shapeCasts_S256_S1x256) broadcasts_S1x256_S400x256 (ix2 p q) = bb (ix1 q) := by
  refine (broadcastTo_apply _ broadcasts_S1x256_S400x256 (ix2 p q) (ix2 (0 : Fin 1) q) fun ax => ?_).trans ?_
  · match ax with
    | ⟨0, _⟩ => rfl
    | ⟨1, _⟩ => show q.val = if (256 : Nat) = 1 then 0 else q.val; rw [if_neg (by decide)]
  · refine shapeCast_apply bb shapeCasts_S256_S1x256 (ix2 (0 : Fin 1) q) (ix1 q) ?_
    rw [Shape.rowMajor_val_two, Shape.rowMajor_val_one]
    show q.val = 0 * 256 + q.val
    omega

/-- THE BODY'S STORED VALUE at (p, q), as a function of the loaded blocks. -/
theorem stored_apply (x0 : Vec Ideal S400x256 .f32) (x1 : Vec Ideal S400x16x256 .f32) (w1 w2 : Vec Ideal S256x256 .f32)
    (bb : Vec Ideal S256 .f32) (p : Fin 400) (q : Fin 256) :
    k0_pay1 (F := Ideal) x0 x1 w1 w2 bb (ix2 p q)
      = max ((∑ d : Fin 256, x0 (ix2 p d) * w1 (ix2 q d)
              + ∑ d : Fin 256, Ideal.div (∑ k : Fin 16, x1 (ix3 p k d)) (Ideal.ofBits .f32 0x41800000#32) * w2 (ix2 q d))
              + bb (ix1 q))
            (Ideal.ofBits .f32 0x00000000#32) := by
  unfold k0_pay1
  dsimp only
  rw [maximumf_apply, addf_apply, addf_apply, product_apply, product_apply, bias_apply, broadcast_apply]
  refine congrArg (max · _) (congrArg (· + _) (congrArg (_ + ·) (Finset.sum_congr rfl fun d _ => ?_)))
  rw [truncf_apply, truncf_apply, mean_apply]

end Cert.Sage.Kern

end
-- ==== Proof.KernelValue.lean ====
/-
  From the blocks to the array: after the run the kernel's result array is the specification of its arguments.

  Point t of the 125-point grid reads rows 400·t … 400·t + 399 of the own-feature and neighbour arrays, the whole
  weight matrix and the whole bias row, and writes rows 400·t … 400·t + 399 of the result (the printed index maps
  send point t to block index t along the nodes and to 0 on every other axis: `index_facts`, decided over the
  grid). So entry (p, q) of what point t writes back is the specification's entry (400·t + p, q) (`written_eq`),
  every row r of the result lies in the block of point r / 400 (`covered`), and therefore the result array ends
  holding the specification everywhere (`result_array`).
-/
import proofs.«167326_j22548578304241_1_alg».proof.Proof.KernelBody

noncomputable section

open scoped BigOperators

namespace Cert.Sage.Kern

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the grid: along the nodes point t's block index is t for the own rows, the
    neighbour rows and the result; every other block index is 0. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-! ## Each input block as rows of its argument -/

/-- Row p of point t's own-feature block is row 400·t + p of the argument. -/
theorem own_apply (c : Dev nD) (t : Fin cfg0.N) (p : Fin 400) (d : Fin 256) (R : Fin 50000) (hR : R.val = 400 * t.val + p.val) :
    (iblk m c 0 t : Vec Ideal S400x256 .f32) (ix2 p d) = (V m c main_arg0 : S50000x256.Idx → Elt Ideal .f32) (ix2 R d) := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 400 + 1 * p.val = R.val; rw [e0, hR]; omega
  | ⟨1, _⟩ => show win0_0.index t (1 : Fin 2) * 256 + 1 * d.val = d.val; rw [e1]; omega

/-- Row p of point t's neighbour block is row 400·t + p of the argument. -/
theorem nb_apply (c : Dev nD) (t : Fin cfg0.N) (p : Fin 400) (k : Fin 16) (d : Fin 256) (R : Fin 50000) (hR : R.val = 400 * t.val + p.val) :
    (iblk m c 1 t : Vec Ideal S400x16x256 .f32) (ix3 p k d) = (V m c main_arg1 : S50000x16x256.Idx → Elt Ideal .f32) (ix3 R k d) := by
  obtain ⟨-, -, e0, e1, e2, -⟩ := index_facts t
  unfold iblk
  rw [View.read_apply]
  show V m c main_arg1 _ = V m c main_arg1 _
  congr 1
  funext a
  apply Fin.ext
  match a with
  | ⟨0, _⟩ => show win0_1.index t (0 : Fin 3) * 400 + 1 * p.val = R.val; rw [e0, hR]; omega
  | ⟨1, _⟩ => show win0_1.index t (1 : Fin 3) * 16 + 1 * k.val = k.val; rw [e1]; omega
  | ⟨2, _⟩ => show win0_1.index t (2 : Fin 3) * 256 + 1 * d.val = d.val; rw [e2]; omega

/-- Every point's weight block is the whole weight matrix. -/
theorem weights_apply (c : Dev nD) (t : Fin cfg0.N) (o : Fin 256) (k : Fin 512) :
    (iblk m c 2 t : Vec Ideal S256x512 .f32) (ix2 o k) = (V m c main_arg2 : S256x512.Idx → Elt Ideal .f32) (ix2 o k) := by
  obtain ⟨-, -, -, -, -, e0, e1, -⟩ := index_facts t
  unfold iblk
  rw [View.read_apply]
  show V m c main_arg2 _ = V m c main_arg2 _
  congr 1
  funext a
  apply Fin.ext
  match a with
  | ⟨0, _⟩ => show win0_2.index t (0 : Fin 2) * 256 + 1 * o.val = o.val; rw [e0]; omega
  | ⟨1, _⟩ => show win0_2.index t (1 : Fin 2) * 512 + 1 * k.val = k.val; rw [e1]; omega

/-- Every point's bias block is the whole bias row. -/
theorem biasrow_apply (c : Dev nD) (t : Fin cfg0.N) (o : Fin 256) :
    (iblk m c 3 t : Vec Ideal S256 .f32) (ix1 o) = (V m c main_arg3 : S256.Idx → Elt Ideal .f32) (ix1 o) := by
  obtain ⟨-, -, -, -, -, -, -, e0, -⟩ := index_facts t
  unfold iblk
  rw [View.read_apply]
  show V m c main_arg3 _ = V m c main_arg3 _
  congr 1
  funext a
  apply Fin.ext
  match a with
  | ⟨0, _⟩ => show win0_3.index t (0 : Fin 1) * 256 + 1 * o.val = o.val; rw [e0]; omega

/-- The load of the weights' first 256 columns, at (q, d), is the weight at column d. -/
theorem half_lo (X : Vec Ideal S256x512 .f32) (q d : Fin 256) : View.ld X r0_2 (ix2 q d) = X (ix2 q (lo d)) := by
  show X (r0_2.idx (ix2 q d)) = X (ix2 q (lo d))
  refine congrArg X (funext fun a => Fin.ext ?_)
  match a with
  | ⟨0, _⟩ => show 0 + 1 * q.val = q.val; omega
  | ⟨1, _⟩ => show 0 + 1 * d.val = d.val; omega

/-- The load of the weights' last 256 columns, at (q, d), is the weight at column 256 + d. -/
theorem half_hi (X : Vec Ideal S256x512 .f32) (q d : Fin 256) : View.ld X r0_3 (ix2 q d) = X (ix2 q (hi d)) := by
  show X (r0_3.idx (ix2 q d)) = X (ix2 q (hi d))
  refine congrArg X (funext fun a => Fin.ext ?_)
  match a with
  | ⟨0, _⟩ => show 0 + 1 * q.val = q.val; omega
  | ⟨1, _⟩ => show 256 + 1 * d.val = 256 + d.val; omega

/-! ## What a point writes back -/

/-- WHAT POINT t WRITES BACK is block t of the specification of the argument arrays. -/
theorem written_eq (c : Dev nD) (t : Fin cfg0.N) :
    (dats m 0 c).flushed 4 t = ((cfg0.win 4).blk t).view.read (Elt Ideal)
      (out (V m c main_arg0) (V m c main_arg1) (V m c main_arg2) (V m c main_arg3)) := by
  rw [Cert.KernelIdeal.Value.flushed4]
  unfold out0_4
  rw [View.canon_unit_zero zero2]
  simp only [View.ld_unit_zero (S := S400x256) zero2, View.ld_unit_zero (S := S400x16x256) zero3, View.ld_unit_zero (S := S256) zero1]
  have hN : cfg0.N = 125 := N_0
  have ht : t.val < 125 := hN ▸ t.isLt
  obtain ⟨-, -, -, -, -, -, -, -, e0, e1⟩ := index_facts t
  funext j
  obtain ⟨p, q, rfl⟩ : ∃ (p : Fin 400) (q : Fin 256), j = ix2 p q := ⟨j 0, j 1, eq_ix2 j⟩
  have hp : p.val < 400 := p.isLt
  have hE : (((cfg0.win 4).blk t).view.emb (ix2 p q) : S50000x256.Idx) = ix2 (⟨400 * t.val + p.val, by omega⟩ : Fin 50000) q := by
    funext a
    apply Fin.ext
    match a with
    | ⟨0, _⟩ => show win0_4.index t (0 : Fin 2) * 400 + 1 * p.val = 400 * t.val + p.val; rw [e0]; omega
    | ⟨1, _⟩ => show win0_4.index t (1 : Fin 2) * 256 + 1 * q.val = q.val; rw [e1]; omega
  show k0_pay1 (F := Ideal) (iblk m c 0 t) (iblk m c 1 t) (View.ld (iblk m c 2 t) r0_2) (View.ld (iblk m c 2 t) r0_3) (iblk m c 3 t) (ix2 p q)
    = out (V m c main_arg0) (V m c main_arg1) (V m c main_arg2) (V m c main_arg3) (((cfg0.win 4).blk t).view.emb (ix2 p q))
  rw [hE]
  refine (stored_apply (iblk m c 0 t) (iblk m c 1 t) (View.ld (iblk m c 2 t) r0_2) (View.ld (iblk m c 2 t) r0_3) (iblk m c 3 t) p q).trans ?_
  unfold out
  refine congrArg (max · _) (congrArg₂ (· + ·) (congrArg₂ (· + ·) (Finset.sum_congr rfl fun d _ => ?_) (Finset.sum_congr rfl fun d _ => ?_)) ?_)
  · exact congrArg₂ (· * ·) (own_apply m c t p d _ rfl) ((half_lo _ q d).trans (weights_apply m c t q (lo d)))
  · unfold agg
    exact congrArg₂ (· * ·) (congrArg (Ideal.div · _) (Finset.sum_congr rfl fun k _ => nb_apply m c t p k d _ rfl))
      ((half_hi _ q d).trans (weights_apply m c t q (hi d)))
  · exact biasrow_apply m c t q

/-! ## The blocks cover the result -/

/-- An index of the result is in point t's block iff each coordinate is in the block's range on its axis. -/
theorem mem_block (t : Fin cfg0.N) (i : S50000x256.Idx) :
    i ∈ ((cfg0.win 4).blk t).view.set ↔ ∀ a : Fin 2, win0_4.index t a * S400x256.size a ≤ (i a).val ∧ (i a).val < win0_4.index t a * S400x256.size a + S400x256.size a := by
  show i ∈ ((View.whole main_v0).slice (win0_4.rect t)).set ↔ _
  rw [View.set_slice_whole, Rect.mem_set_unit]
  exact Iff.rfl

/-- Row r of the result lies in the block of point r / 400, which writes back. -/
theorem covered (i : S50000x256.Idx) : ∃ t : Fin cfg0.N, (cfg0.win 4).flush t = true ∧ i ∈ ((cfg0.win 4).blk t).view.set := by
  have hN : cfg0.N = 125 := N_0
  have h0 : (i 0).val < 50000 := (i 0).isLt
  have h1 : (i 1).val < 256 := (i 1).isLt
  have hlt : (i 0).val / 400 < cfg0.N := by rw [hN]; omega
  obtain ⟨-, -, -, -, -, -, -, -, e0, e1⟩ := index_facts ⟨(i 0).val / 400, hlt⟩
  refine ⟨⟨(i 0).val / 400, hlt⟩, flush0_4 _, ?_⟩
  rw [mem_block]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e0]
    show (i 0).val / 400 * 400 ≤ (i 0).val ∧ (i 0).val < (i 0).val / 400 * 400 + 400
    omega
  | ⟨1, _⟩ =>
    show win0_4.index ⟨(i 0).val / 400, hlt⟩ (1 : Fin 2) * 256 ≤ (i 1).val ∧ (i 1).val < win0_4.index ⟨(i 0).val / 400, hlt⟩ (1 : Fin 2) * 256 + 256
    rw [e1]
    omega

/-! ## The result array and the run -/

/-- THE RESULT ARRAY after the run is the specification of the argument arrays. -/
theorem result_array (c : Dev nD) :
    (dats m 0 c).arrAt 4 cfg0.N = out (m ((c : Thread nD τ).loc main_arg0)) (m ((c : Thread nD τ).loc main_arg1))
      (m ((c : Thread nD τ).loc main_arg2)) (m ((c : Thread nD τ).loc main_arg3)) :=
  (dats m 0 c).arrAt_eq_of_cover 4 (out (V m c main_arg0) (V m c main_arg1) (V m c main_arg2) (V m c main_arg3))
    (fun t _ => written_eq m c t) covered

/-- The kernel's run, read: every weakly fair execution terminates with the result array at the specification of the
    arguments, the arguments unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩)
    (Cert.KernelIdeal.Value.run_blocks m ρ)

end Cert.Sage.Kern

end
-- ==== Proof.RefValue.lean ====
/-
  The reference's result, stage by stage, is the specification.

  The host program sums the 16 neighbour rows from a zero initial value, divides by the float 16, lays the node's
  own row and that mean side by side as one row of 512 entries, takes one sum of products against row o of the
  weights, adds the bias row broadcast down the nodes, and clips below at zero. Reading each stage at an index:
  the 512-entry sum splits into its two halves (`sum_halves`); on the first half the joined row is the node's own
  row, on the second half it is the mean; the zero initial value of the neighbours' sum is the extended real 0 and
  drops out.
-/
import proofs.«167326_j22548578304241_1_alg».proof.Proof.Gen.ReferenceIdeal.Read
import proofs.«167326_j22548578304241_1_alg».proof.Proof.Spec
import Idealize.ShloMosaic.Lib.Pipeline.Value
import Idealize.ShloMosaic.Lib.ValueIdx
import Idealize.ShloMosaic.PureOps.Ideal.Laws

noncomputable section

open scoped BigOperators

namespace Cert.Sage.Ref

open Cert.ReferenceIdeal Cert.ReferenceIdeal.Gen Cert.ReferenceIdeal.Read Idealize.ShloMosaic Idealize.ShloMosaic.ValueIdx Cert.Sage

/-- On the first half of the joined row the entry is the node's own feature. -/
theorem joined_lo (x0 : (⟨S50000x256, .f32⟩ : BufTy).Contents (Elt Ideal)) (x1 : (⟨S50000x16x256, .f32⟩ : BufTy).Contents (Elt Ideal))
    (i : S50000x256.Idx) (d : Fin 256) :
    val_main_v3 (F := Ideal) x0 x1 (lidx_main_v4 i (lo d)) = x0 (ix2 (i 0) d) := by
  unfold val_main_v3
  refine concatenate_pair_apply_left (1 : Fin 2) x0 (val_main_v2 (F := Ideal) x1) concatenates_S50000x256_S50000x256_S50000x512_d1
    (lidx_main_v4 i (lo d)) rfl (ix2 (i 0) d) fun b => ?_
  match b with
  | ⟨0, _⟩ => rfl
  | ⟨1, _⟩ => rfl

/-- The neighbours' sum from the zero initial value, divided by 16, is the mean of the specification. -/
theorem mean_apply (x1 : (⟨S50000x16x256, .f32⟩ : BufTy).Contents (Elt Ideal)) (n : Fin 50000) (d : Fin 256) :
    val_main_v2 (F := Ideal) x1 (ix2 n d) = agg x1 n d := by
  rw [val_main_v2_apply, val_main_v0_apply, val_main_v1_apply, val_main_cst_0_apply, val_main_cst_apply]
  simp only [Ideal.hostDivf_def, Ideal.ofBits_def, Ideal.ofBits_zero_f32, zero_add]
  unfold agg
  refine congrArg (Ideal.div · _) (Finset.sum_congr rfl fun k _ => congrArg x1 ?_)
  funext a
  match a with
  | ⟨0, _⟩ => rfl
  | ⟨1, _⟩ => rfl
  | ⟨2, _⟩ => rfl

/-- On the second half of the joined row the entry is the neighbours' mean. -/
theorem joined_hi (x0 : (⟨S50000x256, .f32⟩ : BufTy).Contents (Elt Ideal)) (x1 : (⟨S50000x16x256, .f32⟩ : BufTy).Contents (Elt Ideal))
    (i : S50000x256.Idx) (d : Fin 256) :
    val_main_v3 (F := Ideal) x0 x1 (lidx_main_v4 i (hi d)) = agg x1 (i 0) d := by
  refine Eq.trans ?_ (mean_apply x1 (i 0) d)
  unfold val_main_v3
  refine concatenate_pair_apply_right (1 : Fin 2) x0 (val_main_v2 (F := Ideal) x1) concatenates_S50000x256_S50000x256_S50000x512_d1
    (lidx_main_v4 i (hi d)) rfl rfl (ix2 (i 0) d) (fun b hb => ?_) ?_
  · match b with
    | ⟨0, _⟩ => rfl
    | ⟨1, _⟩ => exact absurd rfl hb
  · show d.val + 256 = 256 + d.val
    omega

/-- The reference's last stage is the specification of the four arguments. -/
theorem result_eq (x0 : (⟨S50000x256, .f32⟩ : BufTy).Contents (Elt Ideal)) (x1 : (⟨S50000x16x256, .f32⟩ : BufTy).Contents (Elt Ideal))
    (x2 : (⟨S256x512, .f32⟩ : BufTy).Contents (Elt Ideal)) (x3 : (⟨S256, .f32⟩ : BufTy).Contents (Elt Ideal)) :
    val_main_v8 (F := Ideal) x0 x1 x2 x3 = out x0 x1 x2 x3 := by
  funext i
  rw [val_main_v8_apply, val_main_v7_apply, val_main_v4_apply, val_main_v6_apply, val_main_v5_apply,
    val_main_call0_v0_apply, val_main_call0_cst_apply, sum_halves]
  simp only [Ideal.maximumf_def, Ideal.addf_def, Ideal.ofBits_def, joined_lo, joined_hi]
  unfold out
  have hr : ∀ k : Fin 512, ridx_main_v4 i k = ix2 (i 1) k := fun k => funext fun a => by
    match a with
    | ⟨0, _⟩ => rfl
    | ⟨1, _⟩ => rfl
  have hb : idx_main_v5 (idx_main_v6 i) = ix1 (i 1) := funext fun a => by
    match a with
    | ⟨0, _⟩ => rfl
  simp only [hr, hb]
  rfl

end Cert.Sage.Ref

end
-- ==== Proof.lean ====
/-
  A graph layer on 50000 nodes: each node's own 256 features and the mean of its 16 neighbours' features go through
  one linear map with a [256, 512] weight matrix and a bias, then a clip below at zero.

  The kernel walks the nodes 400 at a time. For each group it forms the neighbours' mean, multiplies the own rows by
  the transposed first half of the weights and the means by the transposed second half, adds the two products and the
  bias, and clips. The reference lays own row and mean side by side as one row of 512 entries and takes a single
  product with the transposed weights. On the extended reals a change of float format is the identity and a product
  is an exact sum, so both are

    out(n, o) = max( Σ_d h(n, d)·W(o, d) + Σ_d mean(n, d)·W(o, 256 + d) + b(o), 0 ),

  the reference's one sum over 512 coordinates being the sum of its two halves. That regrouping needs only that
  addition is commutative and associative, so the inputs' finiteness is never used.

  The three runs terminate without fault and leave the arguments unchanged: for the two kernel programs this is the
  generated frame; for the reference it is its generated run with the result forgotten. The idealization rewrote
  nothing, so there is nothing to preserve. For the value claim the kernel's result array is read off its run block
  by block (Proof/KernelBody.lean: an entry of the stored block; Proof/KernelValue.lean: the blocks tile the array),
  the reference's off its run stage by stage (Proof/RefValue.lean), both as the one function of Proof/Spec.lean.
-/
import proofs.«167326_j22548578304241_1_alg».proof.Defs
import proofs.«167326_j22548578304241_1_alg».proof.Proof.Gen.Kernel
import proofs.«167326_j22548578304241_1_alg».proof.Proof.Gen.Kernel.Skeleton
import proofs.«167326_j22548578304241_1_alg».proof.Proof.Gen.Kernel.Launch
import proofs.«167326_j22548578304241_1_alg».proof.Proof.Gen.Kernel.Points
import proofs.«167326_j22548578304241_1_alg».proof.Proof.Gen.Kernel.Frame
import proofs.«167326_j22548578304241_1_alg».proof.Proof.Gen.KernelIdeal
import proofs.«167326_j22548578304241_1_alg».proof.Proof.Gen.KernelIdeal.Skeleton
import proofs.«167326_j22548578304241_1_alg».proof.Proof.Gen.KernelIdeal.Launch
import proofs.«167326_j22548578304241_1_alg».proof.Proof.Gen.KernelIdeal.Points
import proofs.«167326_j22548578304241_1_alg».proof.Proof.Gen.KernelIdeal.Frame
import proofs.«167326_j22548578304241_1_alg».proof.Proof.Gen.ReferenceIdeal
import proofs.«167326_j22548578304241_1_alg».proof.Proof.Gen.Pre_finite_inputs
import proofs.«167326_j22548578304241_1_alg».proof.Proof.Gen.KernelIdeal.Value
import proofs.«167326_j22548578304241_1_alg».proof.Proof.Gen.ReferenceIdeal.Run
import proofs.«167326_j22548578304241_1_alg».proof.Proof.Gen.ReferenceIdeal.Read
import proofs.«167326_j22548578304241_1_alg».proof.Proof.KernelValue
import proofs.«167326_j22548578304241_1_alg».proof.Proof.RefValue
import Idealize.ShloMosaic.Adequacy
import Idealize.ShloMosaic.Init

noncomputable section

namespace Cert.Proof

open Idealize.ShloMosaic Idealize.ShloMosaic.TcCoe Idealize.SL.Sem

/-- The reference terminates without fault and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both runs end with the result array at the layer's output
    `Cert.Sage.out` of those arguments: the kernel's by its blocks, the reference's by its stages. -/
theorem value : Cert.algebraic_KernelIdeal_ReferenceIdeal := by
  intro m ρ m' ρ' _ hagree
  refine ⟨_, Cert.Sage.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Sage.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, value⟩

end Cert.Proof

end
